-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x16x16 : Shape := ⟨4, ![256, 64, 16, 16]⟩
abbrev S256x1024x64 : Shape := ⟨3, ![256, 1024, 64]⟩
abbrev S256x1024 : Shape := ⟨2, ![256, 1024]⟩
abbrev S_ : Shape := ⟨0, ![]⟩

class Facts : Prop where
  bcast_S_S256x64x16x16 : S_.BroadcastsInDim S256x64x16x16 (![] : Fin 0 → Fin S256x64x16x16.rank)
  reducesTo_S256x64x16x16_S_d0_1_2_3 : S256x64x16x16.ReducesTo [0, 1, 2, 3] S_
  h_S_ : 0 < S_.numel
  bcast_S_S256x1024x64 : S_.BroadcastsInDim S256x1024x64 (![] : Fin 0 → Fin S256x1024x64.rank)
  reducesTo_S256x1024x64_S_d0_1_2 : S256x1024x64.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x64x16x16 .f32) (main_arg1 : FVec F S256x1024x64 .f32) (main_arg2 : FVec F S256x1024 .f32) : IVec S_ 1 :=
  let main_v0 : FVec F S256x64x16x16 .f32 := Host.absf main_arg0
  let main_cst : FVec F S_ .f32 := constant S_ .f32 0x7F800000#32
  let main_v1 : FVec F S256x64x16x16 .f32 := broadcastInDim S256x64x16x16 ![] bcast_S_S256x64x16x16 main_cst
  let main_v2 : IVec S256x64x16x16 1 := cmpf .olt main_v0 main_v1
  let main_c : IVec S_ 1 := constantI S_ 1 1#1
  let main_v3 : IVec S_ 1 := (fun x v => Host.reduce IntOp.andi x v reducesTo_S256x64x16x16_S_d0_1_2_3 h_S_) main_v2 main_c
  let main_v4 : FVec F S256x1024x64 .f32 := Host.absf main_arg1
  let main_cst_0 : FVec F S_ .f32 := constant S_ .f32 0x7F800000#32
  let main_v5 : FVec F S256x1024x64 .f32 := broadcastInDim S256x1024x64 ![] bcast_S_S256x1024x64 main_cst_0
  let main_v6 : IVec S256x1024x64 1 := cmpf .olt main_v4 main_v5
  let main_c_1 : IVec S_ 1 := constantI S_ 1 1#1
  let main_v7 : IVec S_ 1 := (fun x v => Host.reduce IntOp.andi x v reducesTo_S256x1024x64_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S256x64x16x16 : Shape := ⟨4, ![256, 64, 16, 16]⟩
abbrev S256x1024x64 : Shape := ⟨3, ![256, 1024, 64]⟩
abbrev S256x1024 : Shape := ⟨2, ![256, 1024]⟩
abbrev S256x64x256 : Shape := ⟨3, ![256, 64, 256]⟩
abbrev S256x256x64 : Shape := ⟨3, ![256, 256, 64]⟩
abbrev S256x64x64x64 : Shape := ⟨4, ![256, 64, 64, 64]⟩
abbrev S32x32x64 : Shape := ⟨3, ![32, 32, 64]⟩
abbrev S32x1024x64 : Shape := ⟨3, ![32, 1024, 64]⟩
abbrev S32x1024 : Shape := ⟨2, ![32, 1024]⟩
abbrev S32x64x8x64 : Shape := ⟨4, ![32, 64, 8, 64]⟩
abbrev S32x32x1024 : Shape := ⟨3, ![32, 32, 1024]⟩
abbrev S32x1x1024 : Shape := ⟨3, ![32, 1, 1024]⟩
abbrev S2x16x32x64x4x4 : Shape := ⟨6, ![2, 16, 32, 64, 4, 4]⟩
abbrev S32x64x2x4x16x4 : Shape := ⟨6, ![32, 64, 2, 4, 16, 4]⟩

abbrev nBuf : Space → Nat
  | .hbm => 6
  | .vmem => 8
  | .smem => 0
  | _ => 0

abbrev bufTy : (tb : Table) → Fin (tcTables nBuf tb) → BufTy
  | .hbm, ⟨0, _⟩ => ⟨S256x64x16x16, .f32⟩
  | .hbm, ⟨1, _⟩ => ⟨S256x1024x64, .f32⟩
  | .hbm, ⟨2, _⟩ => ⟨S256x1024, .f32⟩
  | .hbm, ⟨3, _⟩ => ⟨S256x64x256, .f32⟩
  | .hbm, ⟨4, _⟩ => ⟨S256x256x64, .f32⟩
  | .hbm, ⟨5, _⟩ => ⟨S256x64x64x64, .f32⟩
  | .local _ .vmem, ⟨0, _⟩ => ⟨S32x32x64, .f32⟩
  | .local _ .vmem, ⟨1, _⟩ => ⟨S32x32x64, .f32⟩
  | .local _ .vmem, ⟨2, _⟩ => ⟨S32x1024x64, .f32⟩
  | .local _ .vmem, ⟨3, _⟩ => ⟨S32x1024x64, .f32⟩
  | .local _ .vmem, ⟨4, _⟩ => ⟨S32x1024, .f32⟩
  | .local _ .vmem, ⟨5, _⟩ => ⟨S32x1024, .f32⟩
  | .local _ .vmem, ⟨6, _⟩ => ⟨S32x64x8x64, .f32⟩
  | .local _ .vmem, ⟨7, _⟩ => ⟨S32x64x8x64, .f32⟩
  | _, _ => ⟨S256x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S32x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x64x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x64x16x16_S256x64x256 : S256x64x16x16.ShapeCasts S256x64x256
  transposes_S256x64x256_S256x256x64_2_0_1 : S256x64x256.Transposes [2, 0, 1] S256x256x64
  inb_S32x32x64_S32x32x64_0_0_0 : ∀ a, (![0, 0, 0] : Fin 3 → Nat) a + S32x32x64.size a ≤ S32x32x64.size a
  h_S32x32x64 : 0 < S32x32x64.numel
  shapeCasts_S32x32x64_S32x32x64 : S32x32x64.ShapeCasts S32x32x64
  bitsLt_bf16_f32 : FTy.bits .bf16 < FTy.bits .f32
  inb_S32x1024x64_S32x1024x64_0_0_0 : ∀ a, (![0, 0, 0] : Fin 3 → Nat) a + S32x1024x64.size a ≤ S32x1024x64.size a
  h_S32x1024x64 : 0 < S32x1024x64.numel
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  broadcasts_S32x1x1024_S32x32x1024 : S32x1x1024.Broadcasts S32x32x1024
  shapeCasts_S32x32x1024_S2x16x32x64x4x4 : S32x32x1024.ShapeCasts S2x16x32x64x4x4
  transposes_S2x16x32x64x4x4_p2_3_0_4_1_5_S32x64x2x4x16x4 : S2x16x32x64x4x4.Transposes [2, 3, 0, 4, 1, 5] S32x64x2x4x16x4
  shapeCasts_S32x64x2x4x16x4_S32x64x8x64 : S32x64x2x4x16x4.ShapeCasts S32x64x8x64
  inb_S32x64x8x64_S32x64x8x64_0_0_0_0 : ∀ a, (![0, 0, 0, 0] : Fin 4 → Nat) a + S32x64x8x64.size a ≤ S32x64x8x64.size a
  h_S32x64x8x64 : 0 < S32x64x8x64.numel
  dot_S32x32x64_S32x1024x64_S32x32x1024_2_2_1_1_0_0_wf : DotDims.WF S32x32x64 S32x1024x64 S32x32x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x64.size a ≤ S256x256x64.size a
  hwx0_0 : ∀ i : grid0.Coords, EltTy.bits .f32 = 32 ∨ (Rect.block (s := S256x256x64) S32x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024x64.size a ≤ S256x1024x64.size a
  hwx0_1 : ∀ i : grid0.Coords, EltTy.bits .f32 = 32 ∨ (Rect.block (s := S256x1024x64) S32x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S256x1024.size a
  hwx0_2 : ∀ i : grid0.Coords, EltTy.bits .f32 = 32 ∨ (Rect.block (s := S256x1024) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x8x64.size a ≤ S256x64x64x64.size a
  hwx0_3 : ∀ i : grid0.Coords, EltTy.bits .f32 = 32 ∨ (Rect.block (s := S256x64x64x64) S32x64x8x64.size (cc0_transform_3 i) (hinb0_3 i)).WholeWords (EltTy.packing .f32)

variable [Facts₀]

def dot_S32x32x64_S32x1024x64_S32x32x1024_2_2_1_1_0_0 : DotDims S32x32x64 S32x1024x64 S32x32x1024 where
  lhsContracting := [2]
  rhsContracting := [2]
  lhsNonContracting := [1]
  rhsNonContracting := [1]
  lhsBatch := [0]
  rhsBatch := [0]
  wf := dot_S32x32x64_S32x1024x64_S32x32x1024_2_2_1_1_0_0_wf

abbrev win0_0 : Pipeline.Window sig grid0 :=
  Pipeline.Window.ofSpec (Memref.whole main_v1) S32x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x64x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x16x16 : Shape := ⟨4, ![256, 64, 16, 16]⟩
abbrev S256x1024x64 : Shape := ⟨3, ![256, 1024, 64]⟩
abbrev S256x1024 : Shape := ⟨2, ![256, 1024]⟩
abbrev S256x64x256 : Shape := ⟨3, ![256, 64, 256]⟩
abbrev S256x256x64 : Shape := ⟨3, ![256, 256, 64]⟩
abbrev S256x256x1024 : Shape := ⟨3, ![256, 256, 1024]⟩
abbrev S256x1x1024 : Shape := ⟨3, ![256, 1, 1024]⟩
abbrev S16x16x256x64x4x4 : Shape := ⟨6, ![16, 16, 256, 64, 4, 4]⟩
abbrev S256x64x16x4x16x4 : Shape := ⟨6, ![256, 64, 16, 4, 16, 4]⟩
abbrev S256x64x64x64 : Shape := ⟨4, ![256, 64, 64, 64]⟩

abbrev nBuf : Space → Nat
  | .hbm => 12
  | .vmem => 0
  | .smem => 0
  | _ => 0

abbrev bufTy : (tb : Table) → Fin (tcTables nBuf tb) → BufTy
  | .hbm, ⟨0, _⟩ => ⟨S256x64x16x16, .f32⟩
  | .hbm, ⟨1, _⟩ => ⟨S256x1024x64, .f32⟩
  | .hbm, ⟨2, _⟩ => ⟨S256x1024, .f32⟩
  | .hbm, ⟨3, _⟩ => ⟨S256x64x256, .f32⟩
  | .hbm, ⟨4, _⟩ => ⟨S256x256x64, .f32⟩
  | .hbm, ⟨5, _⟩ => ⟨S256x256x1024, .f32⟩
  | .hbm, ⟨6, _⟩ => ⟨S256x1x1024, .f32⟩
  | .hbm, ⟨7, _⟩ => ⟨S256x256x1024, .f32⟩
  | .hbm, ⟨8, _⟩ => ⟨S256x256x1024, .f32⟩
  | .hbm, ⟨9, _⟩ => ⟨S16x16x256x64x4x4, .f32⟩
  | .hbm, ⟨10, _⟩ => ⟨S256x64x16x4x16x4, .f32⟩
  | .hbm, ⟨11, _⟩ => ⟨S256x64x64x64, .f32⟩
  | _, _ => ⟨S256x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S256x64x16x16_S256x64x256 : S256x64x16x16.ShapeCasts S256x64x256
  transposes_S256x64x256_S256x256x64_2_0_1 : S256x64x256.Transposes [2, 0, 1] S256x256x64
  bcast_S256x1024_S256x1x1024_0_2 : S256x1024.BroadcastsInDim S256x1x1024 (![0, 2] : Fin 2 → Fin S256x1x1024.rank)
  bcast_S256x1x1024_S256x256x1024_0_1_2 : S256x1x1024.BroadcastsInDim S256x256x1024 (![0, 1, 2] : Fin 3 → Fin S256x256x1024.rank)
  shapeCasts_S256x256x1024_S16x16x256x64x4x4 : S256x256x1024.ShapeCasts S16x16x256x64x4x4
  transposes_S16x16x256x64x4x4_S256x64x16x4x16x4_2_3_0_4_1_5 : S16x16x256x64x4x4.Transposes [2, 3, 0, 4, 1, 5] S256x64x16x4x16x4
  shapeCasts_S256x64x16x4x16x4_S256x64x64x64 : S256x64x16x4x16x4.ShapeCasts S256x64x64x64
  dot_S256x256x64_S256x1024x64_S256x256x1024_2_2_1_1_0_0_wf : DotDims.WF S256x256x64 S256x1024x64 S256x256x1024 [2] [2] [1] [1] [0] [0]

variable [Facts₀]

def dot_S256x256x64_S256x1024x64_S256x256x1024_2_2_1_1_0_0 : DotDims S256x256x64 S256x1024x64 S256x256x1024 where
  lhsContracting := [2]
  rhsContracting := [2]
  lhsNonContracting := [1]
  rhsNonContracting := [1]
  lhsBatch := [0]
  rhsBatch := [0]
  wf := dot_S256x256x64_S256x1024x64_S256x256x1024_2_2_1_1_0_0_wf

class Facts : Prop extends Facts₀ where

variable [Facts]
-- ==== Proof.Spec.lean ====
/-
  The function both programs compute. The input is a batch of 256 images of 64 channels on a 16 × 16 grid of pixels.
  Each pixel (r, s) has its own affine map from the 64 input channels to 1024 outputs: a 1024 × 64 weight matrix
  and a bias of 1024 entries, the pixel's row of `W` and `b` being 16·r + s. The 1024 outputs of a pixel are read as
  64 channels of a 4 × 4 patch (output 16·T + 4·u + v is channel T at patch position (u, v)), and the patch is laid
  at rows 4·r … 4·r + 3 and columns 4·s … 4·s + 3 of a 64 × 64 image.
  So the entry at batch B, channel T, row h, column w of the result belongs to the pixel (h / 4, w / 4), and to its
  output 16·T + 4·(h mod 4) + (w mod 4):
      out[B, T, h, w] = Σ_k x[B, k, h / 4, w / 4] · W[pix, chan, k] + b[pix, chan],
      pix = 16·(h / 4) + w / 4,   chan = 16·T + 4·(h mod 4) + (w mod 4).
  On the extended reals this is a finite sum of products plus one entry: no law beyond the definition is used.
-/
import Idealize.ShloMosaic.PureOps.Ideal
import Idealize.ShloMosaic.Lib.ValueIdx

noncomputable section

namespace Cert.PixelPatch

open Idealize.ShloMosaic Idealize.ShloMosaic.ValueIdx

/-- The images: batch, channel, pixel row, pixel column. -/
abbrev SImg : Shape := ⟨4, ![256, 64, 16, 16]⟩
/-- The per-pixel weights: pixel, output, input channel. -/
abbrev SWgt : Shape := ⟨3, ![256, 1024, 64]⟩
/-- The per-pixel biases: pixel, output. -/
abbrev SBias : Shape := ⟨2, ![256, 1024]⟩
/-- The result: batch, channel, row, column. -/
abbrev SRes : Shape := ⟨4, ![256, 64, 64, 64]⟩

/-- The pixel row (or column) a result row (or column) lies over. -/
def cell (h : Fin 64) : Fin 16 := ⟨h.val / 4, by have := h.isLt; omega⟩

/-- The pixel under result position (h, w), as a row of `W` and `b`. -/
def pix (h w : Fin 64) : Fin 256 := ⟨h.val / 4 * 16 + w.val / 4, by have := h.isLt; have := w.isLt; omega⟩

/-- Which of the pixel's 1024 outputs lands at channel T, position (h, w): channel-major, then the place in the 4 × 4 patch. -/
def chan (T h w : Fin 64) : Fin 1024 := ⟨T.val * 16 + h.val % 4 * 4 + w.val % 4, by have := T.isLt; omega⟩

/-- One entry of the result: the pixel's affine map applied to the image's 64 channels at that pixel. -/
def entry (x : FVec Ideal SImg .f32) (W : FVec Ideal SWgt .f32) (b : FVec Ideal SBias .f32) (B : Fin 256) (T h w : Fin 64) : EReal :=
  (∑ k : Fin 64, x (ix4 B k (cell h) (cell w)) * W (ix3 (pix h w) (chan T h w) k)) + b (ix2 (pix h w) (chan T h w))

/-- The whole result as one function of the three argument arrays. -/
def G (x : FVec Ideal SImg .f32) (W : FVec Ideal SWgt .f32) (b : FVec Ideal SBias .f32) : FVec Ideal SRes .f32 :=
  fun j => entry x W b (j 0) (j 1) (j 2) (j 3)

theorem G_apply (x : FVec Ideal SImg .f32) (W : FVec Ideal SWgt .f32) (b : FVec Ideal SBias .f32) (B : Fin 256) (T h w : Fin 64) :
    G x W b (ix4 B T h w) = entry x W b B T h w := rfl

end Cert.PixelPatch

end
-- ==== Proof.RefValue.lean ====
/-
  The reference's result, read index by index, is `G`.
  The reference reshapes the images to [batch, channel, pixel], moves the pixel axis to the front, multiplies — per
  pixel — the [batch, channel] slab by the pixel's weight matrix (one contracted axis, the 64 input channels), adds the
  pixel's bias along the batch axis, and then re-lays the [pixel, batch, output] array: the pixel axis splits into
  (pixel row, pixel column), the output axis into (channel, patch row, patch column), the six axes are permuted to
  (batch, channel, pixel row, patch row, pixel column, patch column), and adjacent pairs merge into rows and columns.
  Reading from the result backwards: row h is (pixel row h / 4, patch row h mod 4), column w is (pixel column w / 4,
  patch column w mod 4); a reshape keeps the row-major position, so each step is one equation between positions.
-/
import proofs.«178230_j25872882991784_1_alg».proof.Proof.Gen.ReferenceIdeal.Read
import proofs.«178230_j25872882991784_1_alg».proof.Proof.Spec
import Idealize.ShloMosaic.Lib.ValueIdxRank6

noncomputable section

namespace Cert.PixelPatch.Ref

open Cert.ReferenceIdeal Cert.ReferenceIdeal.Gen Cert.ReferenceIdeal.Read
open Idealize.ShloMosaic Idealize.ShloMosaic.ValueIdx Cert.PixelPatch

/-- The place inside the 4 × 4 patch. -/
def sub (h : Fin 64) : Fin 4 := ⟨h.val % 4, Nat.mod_lt _ (by decide)⟩

theorem result_eq (x0 : FVec Ideal SImg .f32) (x1 : FVec Ideal SWgt .f32) (x2 : FVec Ideal SBias .f32) :
    val_main_v8 (F := Ideal) x0 x1 x2 = G x0 x1 x2 := by
  funext j
  obtain ⟨B, T, h, w, rfl⟩ : ∃ (B : Fin 256) (T h w : Fin 64), j = ix4 B T h w := ⟨j 0, j 1, j 2, j 3, eq_ix4 j⟩
  have hh : h.val < 64 := h.isLt
  have hw : w.val < 64 := w.isLt
  have hB : B.val < 256 := B.isLt
  have hT : T.val < 64 := T.isLt
  rw [G_apply]
  unfold val_main_v8
  -- rows and columns split back into (pixel, patch) pairs
  refine (shapeCast_apply _ _ _ (ix6 B T (cell h) (sub h) (cell w) (sub w)) ?_).trans ?_
  · rw [Shape.rowMajor_val_six, Shape.rowMajor_val_four]
    show ((((B.val * 64 + T.val) * 16 + h.val / 4) * 4 + h.val % 4) * 16 + w.val / 4) * 4 + w.val % 4
      = ((B.val * 64 + T.val) * 64 + h.val) * 64 + w.val; omega
  rw [val_main_v7_apply]
  unfold val_main_v6
  -- the six axes merge back into (pixel, batch, output)
  refine (shapeCast_apply _ _ _ (ix3 (pix h w) B (chan T h w)) ?_).trans ?_
  · rw [Shape.rowMajor_val_three, Shape.rowMajor_val_six]
    show ((h.val / 4 * 16 + w.val / 4) * 256 + B.val) * 1024 + (T.val * 16 + h.val % 4 * 4 + w.val % 4)
      = ((((h.val / 4 * 16 + w.val / 4) * 256 + B.val) * 64 + T.val) * 4 + h.val % 4) * 4 + w.val % 4; omega
  -- the product with one contracted axis, plus the bias broadcast along the batch axis
  rw [val_main_v5_apply, val_main_v2_apply, val_main_v4_apply, val_main_v3_apply]
  unfold entry
  show (∑ k : Fin 64, val_main_v1 (F := Ideal) x0 (lidx_main_v2 (ix3 (pix h w) B (chan T h w)) k)
      * x1 (ridx_main_v2 (ix3 (pix h w) B (chan T h w)) k))
    + x2 (idx_main_v3 (idx_main_v4 (ix3 (pix h w) B (chan T h w)))) = _
  congr 1
  · refine Finset.sum_congr rfl fun k _ => ?_
    have hk : k.val < 64 := k.isLt
    rw [val_main_v1_apply, val_main_v0_apply]
    congr 1
    · -- the image entry: position ((B·64 + k)·256 + pix) of [batch, channel, pixel] is (B, k, pix / 16, pix mod 16)
      refine congrArg x0 (funext fun a => Fin.ext ?_)
      match a with
      | ⟨0, _⟩ => show ((B.val * 64 + k.val) * 256 + (h.val / 4 * 16 + w.val / 4)) / 16384 = B.val; omega
      | ⟨1, _⟩ => show ((B.val * 64 + k.val) * 256 + (h.val / 4 * 16 + w.val / 4)) / 256 % 64 = k.val; omega
      | ⟨2, _⟩ => show ((B.val * 64 + k.val) * 256 + (h.val / 4 * 16 + w.val / 4)) / 16 % 16 = h.val / 4; omega
      | ⟨3, _⟩ => show ((B.val * 64 + k.val) * 256 + (h.val / 4 * 16 + w.val / 4)) % 16 = w.val / 4; omega
    · refine congrArg x1 (funext fun a => Fin.ext ?_)
      match a with
      | ⟨0, _⟩ => rfl
      | ⟨1, _⟩ => rfl
      | ⟨2, _⟩ => rfl
  · refine congrArg x2 (funext fun a => Fin.ext ?_)
    match a with
    | ⟨0, _⟩ => rfl
    | ⟨1, _⟩ => rfl

end Cert.PixelPatch.Ref

end
-- ==== Proof.Payload.lean ====
/-
  The kernel body's stored value, read at one position of its output block.
  At a grid point the body holds 32 pixels (two pixel rows of 16), 32 batch entries, all 64 channels. It multiplies,
  per pixel, the [batch, channel] slab by the pixel's weight matrix — one contracted axis of 64, accumulated from
  zero, so the product is the plain sum —, adds the pixel's bias along the batch axis, and re-lays [pixel, batch,
  output] as [batch, channel, 8 rows, 64 columns]: the pixel axis splits into (pixel row of 2, pixel column of 16),
  the output axis into (channel, patch row, patch column), the axes are permuted and adjacent pairs merged.
  Read backwards from block position (bb, T, hh, w): the pixel is 16·(hh / 4) + w / 4 of the block's 32, its
  output 16·T + 4·(hh mod 4) + (w mod 4). A change of float format is the identity on the extended reals.
-/
import proofs.«178230_j25872882991784_1_alg».proof.Proof.Gen.KernelIdeal.Skeleton
import proofs.«178230_j25872882991784_1_alg».proof.Proof.Spec
import Idealize.ShloMosaic.Lib.ValueIdxRank6
import Idealize.ShloMosaic.Lib.Pipeline.Value
import Idealize.ShloMosaic.PureOps.Ideal.Laws

noncomputable section

namespace Cert.PixelPatch.Body

open Cert.KernelIdeal Cert.KernelIdeal.Gen
open Idealize.ShloMosaic Idealize.ShloMosaic.ValueIdx Cert.PixelPatch

/-- The pixel, among the block's 32, under block position (hh, w). -/
def lpix (hh : Fin 8) (w : Fin 64) : Fin 32 := ⟨hh.val / 4 * 16 + w.val / 4, by have := hh.isLt; have := w.isLt; omega⟩

/-- The pixel's output that lands at channel T, block position (hh, w). -/
def lchan (T : Fin 64) (hh : Fin 8) (w : Fin 64) : Fin 1024 := ⟨T.val * 16 + hh.val % 4 * 4 + w.val % 4, by have := T.isLt; omega⟩

/-! ## The product's operand indices: the pixel is a batch axis of the product, the input channel its contracted axis -/

theorem lhs_axis0 (i : S32x32x1024.Idx) (q : dot_S32x32x64_S32x1024x64_S32x32x1024_2_2_1_1_0_0.contr.Idx) :
    (dot_S32x32x64_S32x1024x64_S32x32x1024_2_2_1_1_0_0.lhsIdx i q 0).val = (i 0).val := by
  unfold DotDims.lhsIdx
  rw [dif_pos (show (0 : Fin S32x32x64.rank) ∈ dot_S32x32x64_S32x1024x64_S32x32x1024_2_2_1_1_0_0.lhsBatch by decide)]
  rfl
theorem lhs_axis1 (i : S32x32x1024.Idx) (q : dot_S32x32x64_S32x1024x64_S32x32x1024_2_2_1_1_0_0.contr.Idx) :
    (dot_S32x32x64_S32x1024x64_S32x32x1024_2_2_1_1_0_0.lhsIdx i q 1).val = (i 1).val := by
  unfold DotDims.lhsIdx
  rw [dif_neg (show ¬(1 : Fin S32x32x64.rank) ∈ dot_S32x32x64_S32x1024x64_S32x32x1024_2_2_1_1_0_0.lhsBatch by decide), dif_pos (show (1 : Fin S32x32x64.rank) ∈ dot_S32x32x64_S32x1024x64_S32x32x1024_2_2_1_1_0_0.lhsNonContracting by decide)]
  rfl
theorem lhs_axis2 (i : S32x32x1024.Idx) (q : dot_S32x32x64_S32x1024x64_S32x32x1024_2_2_1_1_0_0.contr.Idx) :
    (dot_S32x32x64_S32x1024x64_S32x32x1024_2_2_1_1_0_0.lhsIdx i q 2).val = (q ⟨0, by decide⟩).val :=
  dot_S32x32x64_S32x1024x64_S32x32x1024_2_2_1_1_0_0.lhsIdx_val_of_single rfl i q
theorem rhs_axis0 (i : S32x32x1024.Idx) (q : dot_S32x32x64_S32x1024x64_S32x32x1024_2_2_1_1_0_0.contr.Idx) :
    (dot_S32x32x64_S32x1024x64_S32x32x1024_2_2_1_1_0_0.rhsIdx i q 0).val = (i 0).val := by
  unfold DotDims.rhsIdx
  rw [dif_pos (show (0 : Fin S32x1024x64.rank) ∈ dot_S32x32x64_S32x1024x64_S32x32x1024_2_2_1_1_0_0.rhsBatch by decide)]
  rfl
theorem rhs_axis1 (i : S32x32x1024.Idx) (q : dot_S32x32x64_S32x1024x64_S32x32x1024_2_2_1_1_0_0.contr.Idx) :
    (dot_S32x32x64_S32x1024x64_S32x32x1024_2_2_1_1_0_0.rhsIdx i q 1).val = (i 2).val := by
  unfold DotDims.rhsIdx
  rw [dif_neg (show ¬(1 : Fin S32x1024x64.rank) ∈ dot_S32x32x64_S32x1024x64_S32x32x1024_2_2_1_1_0_0.rhsBatch by decide), dif_pos (show (1 : Fin S32x1024x64.rank) ∈ dot_S32x32x64_S32x1024x64_S32x32x1024_2_2_1_1_0_0.rhsNonContracting by decide)]
  rfl
theorem rhs_axis2 (i : S32x32x1024.Idx) (q : dot_S32x32x64_S32x1024x64_S32x32x1024_2_2_1_1_0_0.contr.Idx) :
    (dot_S32x32x64_S32x1024x64_S32x32x1024_2_2_1_1_0_0.rhsIdx i q 2).val = (q ⟨0, by decide⟩).val :=
  dot_S32x32x64_S32x1024x64_S32x32x1024_2_2_1_1_0_0.rhsIdx_val_of_single rfl i q

/-- The per-pixel product accumulated from zero, at (pixel p, batch bb, output o): the sum over the 64 input channels. -/
theorem product_apply (l : FVec Ideal S32x32x64 .bf16) (r : FVec Ideal S32x1024x64 .bf16) (p bb : Fin 32) (o : Fin 1024) :
    matmul dot_S32x32x64_S32x1024x64_S32x32x1024_2_2_1_1_0_0 none l r (constant S32x32x1024 .f32 0x00000000#32) (ix3 p bb o)
      = ∑ k : Fin 64, l (ix3 p bb k) * r (ix3 p o k) := by
  simp only [matmul]
  rw [Ideal.matmul_constant_zero_apply, ← Equiv.sum_comp (ValueIdx.contrEquiv1 dot_S32x32x64_S32x1024x64_S32x32x1024_2_2_1_1_0_0 64 rfl rfl).symm]
  refine Finset.sum_congr rfl fun k _ => ?_
  have hk := ValueIdx.contrEquiv1_symm_val dot_S32x32x64_S32x1024x64_S32x32x1024_2_2_1_1_0_0 64 rfl rfl k
  have el : dot_S32x32x64_S32x1024x64_S32x32x1024_2_2_1_1_0_0.lhsIdx (ix3 p bb o) ((ValueIdx.contrEquiv1 dot_S32x32x64_S32x1024x64_S32x32x1024_2_2_1_1_0_0 64 rfl rfl).symm k) = ix3 p bb k := funext fun a => Fin.ext (by
    match a with
    | ⟨0, _⟩ => exact lhs_axis0 _ _
    | ⟨1, _⟩ => exact lhs_axis1 _ _
    | ⟨2, _⟩ => exact (lhs_axis2 _ _).trans hk)
  have er : dot_S32x32x64_S32x1024x64_S32x32x1024_2_2_1_1_0_0.rhsIdx (ix3 p bb o) ((ValueIdx.contrEquiv1 dot_S32x32x64_S32x1024x64_S32x32x1024_2_2_1_1_0_0 64 rfl rfl).symm k) = ix3 p o k := funext fun a => Fin.ext (by
    match a with
    | ⟨0, _⟩ => exact rhs_axis0 _ _
    | ⟨1, _⟩ => exact rhs_axis1 _ _
    | ⟨2, _⟩ => exact (rhs_axis2 _ _).trans hk)
  rw [el, er]

/-- The bias row, given a unit batch axis and repeated along the batch, read at (p, bb, o): the bias of pixel p, output o. -/
theorem bias_apply (v6 : Vec Ideal S32x1024 .f32) (p bb : Fin 32) (o : Fin 1024) :
    broadcastTo S32x32x1024 (shapeCast S32x1x1024 v6 shapeCasts_S32x1024_S32x1x1024) broadcasts_S32x1x1024_S32x32x1024 (ix3 p bb o)
      = v6 (ix2 p o) := by
  refine (broadcastTo_apply _ _ _ (ix3 p (0 : Fin 1) o) (fun a => match a with
    | ⟨0, _⟩ => by show p.val = if (32 : Nat) = 1 then 0 else p.val; rw [if_neg (by decide)]
    | ⟨1, _⟩ => by show 0 = if (1 : Nat) = 1 then 0 else bb.val; rw [if_pos rfl]
    | ⟨2, _⟩ => by show o.val = if (1024 : Nat) = 1 then 0 else o.val; rw [if_neg (by decide)])).trans ?_
  exact shapeCast_apply _ _ _ (ix2 p o) (by
    rw [Shape.rowMajor_val_two, Shape.rowMajor_val_three]
    show p.val * 1024 + o.val = (p.val * 1 + 0) * 1024 + o.val; omega)

/-- THE STORED VALUE at block position (bb, T, hh, w). -/
theorem stored_apply (v0 : Vec Ideal S32x32x64 .f32) (v3 : Vec Ideal S32x1024x64 .f32) (v6 : Vec Ideal S32x1024 .f32)
    (bb : Fin 32) (T : Fin 64) (hh : Fin 8) (w : Fin 64) :
    k0_pay1 (F := Ideal) v0 v3 v6 (ix4 bb T hh w)
      = (∑ k : Fin 64, v0 (ix3 (lpix hh w) bb k) * v3 (ix3 (lpix hh w) (lchan T hh w) k)) + v6 (ix2 (lpix hh w) (lchan T hh w)) := by
  have h8 : hh.val < 8 := hh.isLt
  have hw : w.val < 64 := w.isLt
  have hT : T.val < 64 := T.isLt
  have hb : bb.val < 32 := bb.isLt
  unfold k0_pay1
  dsimp only
  -- rows and columns split into (pixel, patch) pairs
  refine (shapeCast_apply _ _ _ (ix6 bb T (⟨hh.val / 4, by omega⟩ : Fin 2) (⟨hh.val % 4, by omega⟩ : Fin 4) (⟨w.val / 4, by omega⟩ : Fin 16) (⟨w.val % 4, by omega⟩ : Fin 4)) ?_).trans ?_
  · rw [Shape.rowMajor_val_six, Shape.rowMajor_val_four]
    show ((((bb.val * 64 + T.val) * 2 + hh.val / 4) * 4 + hh.val % 4) * 16 + w.val / 4) * 4 + w.val % 4
      = ((bb.val * 64 + T.val) * 8 + hh.val) * 64 + w.val; omega
  -- the permutation of the six axes
  refine (transpose_apply _ _ _ _ (ix6 (⟨hh.val / 4, by omega⟩ : Fin 2) (⟨w.val / 4, by omega⟩ : Fin 16) bb T (⟨hh.val % 4, by omega⟩ : Fin 4) (⟨w.val % 4, by omega⟩ : Fin 4))
    (fun b => match b with | ⟨0, _⟩ => rfl | ⟨1, _⟩ => rfl | ⟨2, _⟩ => rfl | ⟨3, _⟩ => rfl | ⟨4, _⟩ => rfl | ⟨5, _⟩ => rfl)).trans ?_
  -- the six axes merge back into (pixel, batch, output)
  refine (shapeCast_apply _ _ _ (ix3 (lpix hh w) bb (lchan T hh w)) ?_).trans ?_
  · rw [Shape.rowMajor_val_three, Shape.rowMajor_val_six]
    show ((hh.val / 4 * 16 + w.val / 4) * 32 + bb.val) * 1024 + (T.val * 16 + hh.val % 4 * 4 + w.val % 4)
      = ((((hh.val / 4 * 16 + w.val / 4) * 32 + bb.val) * 64 + T.val) * 4 + hh.val % 4) * 4 + w.val % 4; omega
  refine (addf_apply _ _ _).trans ?_
  rw [product_apply, bias_apply, shapeCast_self]
  rfl

end Cert.PixelPatch.Body

end
-- ==== Proof.KernelValue.lean ====
/-
  From the blocks to the whole result array.
  The grid has 8 × 8 points (i, j): point (i, j) handles pixel rows 2i and 2i + 1 (pixels 32i … 32i + 31) and batch
  entries 32j … 32j + 31. Its image block is rows 32i …, columns 32j … of the [pixel, batch, channel] array the host
  made from the images (reshape, then pixel axis to the front), so entry (p, bb, k) of the block is the image entry
  (32j + bb, k, (32i + p) / 16, (32i + p) mod 16); its weight and bias blocks are the rows 32i … of `W` and `b`.
  It writes block (j, 0, i, 0) of the result, blocks being [32, 64, 8, 64]: batch 32j + bb, channel T, row 8i + hh,
  column w. Row 8i + hh lies over pixel row 2i + hh / 4 with the same place in the patch, hh mod 4 — so the block's
  pixel 16·(hh / 4) + w / 4 is pixel 16·((8i + hh) / 4) + w / 4 of the image —: what the point writes is its block of
  `G`. The 64 blocks tile the array (the block over index (B, T, h, w) is (B / 32, 0, h / 8, 0)), so the array ends at `G`.
-/
import proofs.«178230_j25872882991784_1_alg».proof.Proof.Gen.KernelIdeal.Value
import proofs.«178230_j25872882991784_1_alg».proof.Proof.Payload
import Idealize.ShloMosaic.Lib.StableHlo.Run

noncomputable section

namespace Cert.PixelPatch.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.PixelPatch Cert.PixelPatch.Body

variable (m : (ℓ : Loc nD τ sig) → Buf (Elt Ideal) ℓ) (ρ : Dev nD → PrngReg)

/-- The three argument arrays as launched. -/
abbrev img (c : Dev nD) : FVec Ideal SImg .f32 := m ((c : Thread nD τ).loc main_arg0)
abbrev wgt (c : Dev nD) : FVec Ideal SWgt .f32 := m ((c : Thread nD τ).loc main_arg1)
abbrev bias (c : Dev nD) : FVec Ideal SBias .f32 := m ((c : Thread nD τ).loc main_arg2)

/-- The [pixel, batch, channel] array the host operations make before the region. -/
abbrev pixFirst (c : Dev nD) : FVec Ideal S256x256x64 .f32 := V m c main_v1

/-- The three input blocks at a point, at their literal shapes. -/
abbrev xblk (c : Dev nD) (t : Fin cfg0.N) : Vec Ideal S32x32x64 .f32 := iblk m c 0 t
abbrev wblk (c : Dev nD) (t : Fin cfg0.N) : Vec Ideal S32x1024x64 .f32 := iblk m c 1 t
abbrev bblk (c : Dev nD) (t : Fin cfg0.N) : Vec Ideal S32x1024 .f32 := iblk m c 2 t

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The host operations before the region -/

/-- The region finds the images reshaped to [batch, channel, pixel] with the pixel axis moved to the front. -/
theorem pixFirst_eq (c : Dev nD) :
    pixFirst m c = transpose S256x256x64 [2, 0, 1] (shapeCast S256x64x256 (img m c) shapeCasts_S256x64x16x16_S256x64x256) transposes_S256x64x256_S256x256x64_2_0_1 := by
  dsimp only [pixFirst, Gen.V, Gen.hostOps0]
  after_results
  rfl

/-- Its entry (pixel P, batch Bq, channel k) is the image entry (Bq, k, P / 16, P mod 16). -/
theorem pixFirst_apply (c : Dev nD) (P Bq : Fin 256) (k : Fin 64) :
    pixFirst m c (ix3 P Bq k) = img m c (ix4 Bq k (⟨P.val / 16, by have := P.isLt; omega⟩ : Fin 16) (⟨P.val % 16, Nat.mod_lt _ (by decide)⟩ : Fin 16)) := by
  have hP : P.val < 256 := P.isLt
  rw [pixFirst_eq]
  refine (transpose_apply _ _ _ _ (ix3 Bq k P) (fun b => match b with | ⟨0, _⟩ => rfl | ⟨1, _⟩ => rfl | ⟨2, _⟩ => rfl)).trans ?_
  exact shapeCast_apply _ _ _ _ (by
    rw [Shape.rowMajor_val_four, Shape.rowMajor_val_three]
    show ((Bq.val * 64 + k.val) * 16 + P.val / 16) * 16 + P.val % 16 = (Bq.val * 64 + k.val) * 256 + P.val; omega)

/-! ## The index maps, decided over the 64 points -/

/-- The input blocks move with the output block: the pixel rows with its row index, the batch with its batch index. -/
theorem idx_facts : ∀ t : Fin cfg0.N,
    win0_0.index t (0 : Fin 3) = win0_3.index t (2 : Fin 4) ∧ win0_0.index t (1 : Fin 3) = win0_3.index t (0 : Fin 4) ∧ win0_0.index t (2 : Fin 3) = 0
    ∧ win0_1.index t (0 : Fin 3) = win0_3.index t (2 : Fin 4) ∧ win0_1.index t (1 : Fin 3) = 0 ∧ win0_1.index t (2 : Fin 3) = 0
    ∧ win0_2.index t (0 : Fin 2) = win0_3.index t (2 : Fin 4) ∧ win0_2.index t (1 : Fin 2) = 0
    ∧ win0_3.index t (1 : Fin 4) = 0 ∧ win0_3.index t (3 : Fin 4) = 0
    ∧ win0_3.index t (0 : Fin 4) < 8 ∧ win0_3.index t (2 : Fin 4) < 8 :=
  (by decide +kernel : ∀ t : Fin grid0.N, _)

/-- Every output block (batch block q0, row block q2) is some point's. -/
theorem idx_onto : ∀ (q0 q2 : Fin 8), ∃ t : Fin cfg0.N, win0_3.index t = ![q0.val, 0, q2.val, 0] :=
  (by decide +kernel : ∀ (q0 q2 : Fin 8), ∃ t : Fin grid0.N, win0_3.index t = ![q0.val, 0, q2.val, 0])

/-! ## The input blocks, read at a position -/

theorem xblk_apply (c : Dev nD) (t : Fin cfg0.N) (p bb : Fin 32) (k : Fin 64) (P Bq : Fin 256)
    (hP : P.val = win0_0.index t (0 : Fin 3) * 32 + p.val) (hB : Bq.val = win0_0.index t (1 : Fin 3) * 32 + bb.val)
    (h2 : win0_0.index t (2 : Fin 3) = 0) :
    xblk m c t (ix3 p bb k) = pixFirst m c (ix3 P Bq k) := by
  unfold xblk iblk
  rw [View.read_apply]
  show V m c main_v1 _ = V m c main_v1 _
  congr 1
  funext a
  apply Fin.ext
  match a with
  | ⟨0, _⟩ => show win0_0.index t (0 : Fin 3) * 32 + 1 * p.val = P.val; omega
  | ⟨1, _⟩ => show win0_0.index t (1 : Fin 3) * 32 + 1 * bb.val = Bq.val; omega
  | ⟨2, _⟩ => show win0_0.index t (2 : Fin 3) * 64 + 1 * k.val = k.val; omega

theorem wblk_apply (c : Dev nD) (t : Fin cfg0.N) (p : Fin 32) (o : Fin 1024) (k : Fin 64) (P : Fin 256)
    (hP : P.val = win0_1.index t (0 : Fin 3) * 32 + p.val) (h1 : win0_1.index t (1 : Fin 3) = 0) (h2 : win0_1.index t (2 : Fin 3) = 0) :
    wblk m c t (ix3 p o k) = wgt m c (ix3 P o k) := by
  unfold wblk iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 32 + 1 * p.val = P.val; omega
  | ⟨1, _⟩ => show win0_1.index t (1 : Fin 3) * 1024 + 1 * o.val = o.val; omega
  | ⟨2, _⟩ => show win0_1.index t (2 : Fin 3) * 64 + 1 * k.val = k.val; omega

theorem bblk_apply (c : Dev nD) (t : Fin cfg0.N) (p : Fin 32) (o : Fin 1024) (P : Fin 256)
    (hP : P.val = win0_2.index t (0 : Fin 2) * 32 + p.val) (h1 : win0_2.index t (1 : Fin 2) = 0) :
    bblk m c t (ix2 p o) = bias m c (ix2 P o) := by
  unfold bblk iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 32 + 1 * p.val = P.val; omega
  | ⟨1, _⟩ => show win0_2.index t (1 : Fin 2) * 1024 + 1 * o.val = o.val; omega

/-! ## What a point writes is its block of `G` -/

/-- The body's stored value at block position `y` is `G` at the array index `i` under it. -/
theorem point_eq (c : Dev nD) (t : Fin cfg0.N) (y : S32x64x8x64.Idx) (i : SRes.Idx)
    (h0 : (i 0).val = win0_3.index t (0 : Fin 4) * 32 + (y 0).val) (h1 : (i 1).val = (y 1).val)
    (h2 : (i 2).val = win0_3.index t (2 : Fin 4) * 8 + (y 2).val) (h3 : (i 3).val = (y 3).val) :
    k0_pay1 (F := Ideal) (xblk m c t) (wblk m c t) (bblk m c t) y = G (img m c) (wgt m c) (bias m c) i := by
  obtain ⟨e00, e01, e02, e10, e11, e12, e20, e21, e31, e33, b0, b2⟩ := idx_facts t
  obtain ⟨bb, T, hh, w, rfl⟩ : ∃ (bb : Fin 32) (T : Fin 64) (hh : Fin 8) (w : Fin 64), y = ix4 bb T hh w := ⟨y 0, y 1, y 2, y 3, eq_ix4 y⟩
  obtain ⟨B, T', h, w', rfl⟩ : ∃ (B : Fin 256) (T' h w' : Fin 64), i = ix4 B T' h w' := ⟨i 0, i 1, i 2, i 3, eq_ix4 i⟩
  have h0' : B.val = win0_3.index t (0 : Fin 4) * 32 + bb.val := h0
  have h1' : T'.val = T.val := h1
  have h2' : h.val = win0_3.index t (2 : Fin 4) * 8 + hh.val := h2
  have h3' : w'.val = w.val := h3
  obtain rfl : T' = T := Fin.ext h1'
  obtain rfl : w' = w := Fin.ext h3'
  have hhh : hh.val < 8 := hh.isLt
  have hww : w'.val < 64 := w'.isLt
  have hbb : bb.val < 32 := bb.isLt
  have hh64 : h.val < 64 := h.isLt
  -- the block's pixel is the image's pixel under (h, w), and the output is the same
  have epix : (pix h w').val = win0_3.index t (2 : Fin 4) * 32 + (lpix hh w').val := by
    show h.val / 4 * 16 + w'.val / 4 = win0_3.index t (2 : Fin 4) * 32 + (hh.val / 4 * 16 + w'.val / 4); omega
  have echan : lchan T' hh w' = chan T' h w' := Fin.ext (by
    show T'.val * 16 + hh.val % 4 * 4 + w'.val % 4 = T'.val * 16 + h.val % 4 * 4 + w'.val % 4; omega)
  rw [G_apply]
  refine (stored_apply (xblk m c t) (wblk m c t) (bblk m c t) bb T' hh w').trans ?_
  unfold entry
  rw [echan]
  congr 1
  · refine Finset.sum_congr rfl fun k _ => ?_
    rw [xblk_apply m c t (lpix hh w') bb k (pix h w') B (by omega) (by omega) e02, pixFirst_apply,
      wblk_apply m c t (lpix hh w') (chan T' h w') k (pix h w') (by omega) e11 e12]
    congr 2
    funext a
    apply Fin.ext
    match a with
    | ⟨0, _⟩ => rfl
    | ⟨1, _⟩ => rfl
    | ⟨2, _⟩ => show (h.val / 4 * 16 + w'.val / 4) / 16 = h.val / 4; omega
    | ⟨3, _⟩ => show (h.val / 4 * 16 + w'.val / 4) % 16 = w'.val / 4; omega
  · exact bblk_apply m c t (lpix hh w') (chan T' h w') (pix h w') (by omega) e21

/-- WHAT POINT `t` WRITES BACK is its block of `G` of the three argument arrays. -/
theorem flushed_eq (c : Dev nD) (t : Fin cfg0.N) :
    (dats m 0 c).flushed 3 t = ((cfg0.win 3).blk t).view.read (Elt Ideal) (G (img m c) (wgt m c) (bias m c)) := by
  rw [Value.flushed3]
  unfold out0_3
  rw [View.canon_unit_zero hz4]
  simp only [View.ld_unit_zero (S := S32x32x64) hz3, View.ld_unit_zero (S := S32x1024x64) hz3, View.ld_unit_zero (S := S32x1024) hz2]
  obtain ⟨e00, e01, e02, e10, e11, e12, e20, e21, e31, e33, b0, b2⟩ := idx_facts t
  funext y
  refine point_eq m c t y (((cfg0.win 3).blk t).view.emb y) ?_ ?_ ?_ ?_
  · show win0_3.index t (0 : Fin 4) * 32 + 1 * (y 0).val = _; omega
  · show win0_3.index t (1 : Fin 4) * 64 + 1 * (y 1).val = _; omega
  · show win0_3.index t (2 : Fin 4) * 8 + 1 * (y 2).val = _; omega
  · show win0_3.index t (3 : Fin 4) * 64 + 1 * (y 3).val = _; omega

/-! ## The blocks tile the array -/

/-- An index of the array is in point `t`'s block iff each coordinate is in the block's range on its axis. -/
theorem mem_blk (t : Fin cfg0.N) (i : S256x64x64x64.Idx) :
    i ∈ ((cfg0.win 3).blk t).view.set ↔ ∀ a : Fin 4, win0_3.index t a * S32x64x8x64.size a ≤ (i a).val ∧ (i a).val < win0_3.index t a * S32x64x8x64.size a + S32x64x8x64.size a := by
  show i ∈ ((View.whole main_v2).slice (win0_3.rect t)).set ↔ _
  rw [View.set_slice_whole, Rect.mem_set_unit]
  exact Iff.rfl

/-- Every index is in some point's block: the one with batch block B / 32 and row block h / 8. -/
theorem cover (i : S256x64x64x64.Idx) : ∃ t : Fin cfg0.N, (cfg0.win 3).flush t = true ∧ i ∈ ((cfg0.win 3).blk t).view.set := by
  have hi0 : (i 0).val < 256 := (i 0).isLt
  have hi1 : (i 1).val < 64 := (i 1).isLt
  have hi2 : (i 2).val < 64 := (i 2).isLt
  have hi3 : (i 3).val < 64 := (i 3).isLt
  obtain ⟨t, ht⟩ := idx_onto ⟨(i 0).val / 32, by omega⟩ ⟨(i 2).val / 8, by omega⟩
  have q0 : win0_3.index t (0 : Fin 4) = (i 0).val / 32 := congrFun ht 0
  have q1 : win0_3.index t (1 : Fin 4) = 0 := congrFun ht 1
  have q2 : win0_3.index t (2 : Fin 4) = (i 2).val / 8 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 32 ≤ (i 0).val ∧ (i 0).val < win0_3.index t (0 : Fin 4) * 32 + 32; omega
  | ⟨1, _⟩ => show win0_3.index t (1 : Fin 4) * 64 ≤ (i 1).val ∧ (i 1).val < win0_3.index t (1 : Fin 4) * 64 + 64; omega
  | ⟨2, _⟩ => show win0_3.index t (2 : Fin 4) * 8 ≤ (i 2).val ∧ (i 2).val < win0_3.index t (2 : Fin 4) * 8 + 8; omega
  | ⟨3, _⟩ => show win0_3.index t (3 : Fin 4) * 64 ≤ (i 3).val ∧ (i 3).val < win0_3.index t (3 : Fin 4) * 64 + 64; omega

/-- THE ARRAY after the run is `G` of the three argument arrays. -/
theorem final (c : Dev nD) : (dats m 0 c).arrAt 3 cfg0.N = G (img m c) (wgt m c) (bias m c) :=
  (dats m 0 c).arrAt_eq_of_cover 3 (G (img m c) (wgt m c) (bias m c)) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = G (img m c) (wgt m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.PixelPatch.Kernel

end
-- ==== Proof.lean ====
/-
  The kernel and its reference compute the same array on the extended reals.
  Both apply, at every pixel of a 16 × 16 image, that pixel's own affine map from the 64 input channels to 1024
  outputs, and lay each pixel's outputs out as 64 channels of a 4 × 4 patch of a 64 × 64 image:
      out[B, T, h, w] = Σ_k x[B, k, h / 4, w / 4] · W[pix, chan, k] + b[pix, chan],
      pix = 16·(h / 4) + w / 4,   chan = 16·T + 4·(h mod 4) + (w mod 4)                      (Proof/Spec.lean, `G`).
  The reference does it on whole arrays: one product with a contracted axis, a broadcast sum, two reshapes around a
  permutation of six axes (Proof/RefValue.lean reads its result index by index). The kernel does it block by
  block over an 8 × 8 grid, two pixel rows and 32 batch entries at a time, with the same re-layout inside each
  block (Proof/Payload.lean reads the stored value at a block position; Proof/KernelValue.lean places the blocks in
  the array and shows they tile it). The kernel narrows its factors to bfloat16 before multiplying, which on the
  extended reals is the identity, and accumulates the product from zero, which adds nothing: the two sides are the
  same finite sum of products plus the same bias entry, term by term. No law of the extended reals beyond
  `0 + a = a` is used, so the finiteness of the inputs is never opened.
  The three programs run and leave their arguments unchanged: the two kernels by their generated frames, the
  reference by its generated run. The idealization rewrote no operation, so there is nothing to preserve.
-/
import proofs.«178230_j25872882991784_1_alg».proof.Defs
import proofs.«178230_j25872882991784_1_alg».proof.Proof.Gen.Kernel
import proofs.«178230_j25872882991784_1_alg».proof.Proof.Gen.Kernel.Skeleton
import proofs.«178230_j25872882991784_1_alg».proof.Proof.Gen.Kernel.Launch
import proofs.«178230_j25872882991784_1_alg».proof.Proof.Gen.Kernel.Points
import proofs.«178230_j25872882991784_1_alg».proof.Proof.Gen.Kernel.Frame
import proofs.«178230_j25872882991784_1_alg».proof.Proof.Gen.KernelIdeal
import proofs.«178230_j25872882991784_1_alg».proof.Proof.Gen.KernelIdeal.Skeleton
import proofs.«178230_j25872882991784_1_alg».proof.Proof.Gen.KernelIdeal.Launch
import proofs.«178230_j25872882991784_1_alg».proof.Proof.Gen.KernelIdeal.Points
import proofs.«178230_j25872882991784_1_alg».proof.Proof.Gen.KernelIdeal.Frame
import proofs.«178230_j25872882991784_1_alg».proof.Proof.Gen.ReferenceIdeal
import proofs.«178230_j25872882991784_1_alg».proof.Proof.Gen.Pre_finite_inputs
import proofs.«178230_j25872882991784_1_alg».proof.Proof.Gen.KernelIdeal.Value
import proofs.«178230_j25872882991784_1_alg».proof.Proof.Gen.ReferenceIdeal.Run
import proofs.«178230_j25872882991784_1_alg».proof.Proof.Gen.ReferenceIdeal.Read
import proofs.«178230_j25872882991784_1_alg».proof.Proof.RefValue
import proofs.«178230_j25872882991784_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at `G` of them (block by block,
    the blocks tiling the array) and the reference's at its operations' composed term, which read index by index is
    the same `G`. -/
theorem algebraic : Cert.algebraic_KernelIdeal_ReferenceIdeal := by
  intro m ρ m' ρ' _ hagree
  refine ⟨fun c => Cert.PixelPatch.G (Cert.PixelPatch.Kernel.img m c) (Cert.PixelPatch.Kernel.wgt m c) (Cert.PixelPatch.Kernel.bias m c),
    Cert.PixelPatch.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  exact Cert.PixelPatch.Ref.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
